-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2x4096x4096 : Shape := ⟨3, ![2, 4096, 4096]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x64 .f32) (main_arg1 : FVec F S2x4096x4096 .f32) (main_arg2 : FVec F S64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x64 : Shape := ⟨2, ![4096, 64]⟩
abbrev S2x4096x4096 : Shape := ⟨3, ![2, 4096, 4096]⟩
abbrev S64x64 : Shape := ⟨2, ![64, 64]⟩
abbrev S64x4096 : Shape := ⟨2, ![64, 4096]⟩
abbrev S2x256x4096 : Shape := ⟨3, ![2, 256, 4096]⟩
abbrev S64x256 : Shape := ⟨2, ![64, 256]⟩
abbrev S1x256x4096 : Shape := ⟨3, ![1, 256, 4096]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S64x64, .f32⟩
  | .hbm, ⟨3, _⟩ => ⟨S64x4096, .f32⟩
  | .hbm, ⟨4, _⟩ => ⟨S4096x64, .f32⟩
  | .local _ .vmem, ⟨0, _⟩ => ⟨S4096x64, .f32⟩
  | .local _ .vmem, ⟨1, _⟩ => ⟨S2x256x4096, .f32⟩
  | .local _ .vmem, ⟨2, _⟩ => ⟨S2x256x4096, .f32⟩
  | .local _ .vmem, ⟨3, _⟩ => ⟨S64x64, .f32⟩
  | .local _ .vmem, ⟨4, _⟩ => ⟨S64x256, .f32⟩
  | .local _ .vmem, ⟨5, _⟩ => ⟨S64x256, .f32⟩
  | .local _ .vmem, ⟨6, _⟩ => ⟨S64x4096, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x4096_S4096x64_1_0 : S64x4096.Transposes [1, 0] S4096x64
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  transposes_S4096x64_p1_0_S64x4096 : S4096x64.Transposes [1, 0] S64x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  inb_S2x256x4096_S1x256x4096_1_0_0 : ∀ a, (![1, 0, 0] : Fin 3 → Nat) a + S1x256x4096.size a ≤ S2x256x4096.size a
  inb_S64x256_S64x256_0_0 : ∀ a, (![0, 0] : Fin 2 → Nat) a + S64x256.size a ≤ S64x256.size a
  h_S64x256 : 0 < S64x256.numel
  dot_S4096x64_S64x64_S4096x64_1_0_0_1_n_n_wf : DotDims.WF S4096x64 S64x64 S4096x64 [1] [0] [0] [1] [] []
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x4096.size a ≤ S2x4096x4096.size a
  hwx0_1 : ∀ i : grid0.Coords, EltTy.bits .f32 = 32 ∨ (Rect.block (s := S2x4096x4096) S2x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x4096.size a
  hwx0_3 : ∀ i : grid0.Coords, EltTy.bits .f32 = 32 ∨ (Rect.block (s := S64x4096) S64x256.size (cc0_transform_3 i) (hinb0_3 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S2x4096x4096 : Shape := ⟨3, ![2, 4096, 4096]⟩
abbrev S64x64 : Shape := ⟨2, ![64, 64]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S64x64, .f32⟩
  | .hbm, ⟨3, _⟩ => ⟨S4096x64, .f32⟩
  | .hbm, ⟨4, _⟩ => ⟨S_, .f32⟩
  | .hbm, ⟨5, _⟩ => ⟨S4096x4096, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  reducesTo_S2x4096x4096_S4096x4096_d0 : S2x4096x4096.ReducesTo [0] S4096x4096
  h_S_ : 0 < S_.numel
  bcast_S_S4096x64 : S_.BroadcastsInDim S4096x64 (![] : Fin 0 → Fin S4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Spec.lean ====
/-
  WHAT BOTH PROGRAMS COMPUTE, index by index on the extended reals (this module mentions no program).

  From node features x : [4096, 64], two adjacency matrices adj : [2, 4096, 4096] and weights w : [64, 64]:
    hidden features   h (m, d) = ∑ j, x (m, j) · w (j, d),
    aggregated        out (n, d) = max (∑ m, h (m, d) · (adj (0, n, m) + adj (1, n, m))) 0.
  The sum of the two adjacency matrices is taken before the product on both sides, so the only laws that join the two
  programs are commutativity of the product and 0 + a = a: no distributivity, hence no finiteness.
-/
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨2, ![4096, 64]⟩
abbrev SA : Shape := ⟨3, ![2, 4096, 4096]⟩
abbrev SW : Shape := ⟨2, ![64, 64]⟩
abbrev SOT : Shape := ⟨2, ![64, 4096]⟩

/-- The hidden features: row m of x against column d of w. -/
def hid (x : FVec Ideal SX .f32) (w : FVec Ideal SW .f32) (m : Fin 4096) (d : Fin 64) : EReal :=
  ∑ j : Fin 64, x (ix2 m j) * w (ix2 j d)

/-- The two adjacency matrices added entrywise. -/
def adjSum (adj : FVec Ideal SA .f32) (n m : Fin 4096) : EReal :=
  adj (ix3 (0 : Fin 2) n m) + adj (ix3 (1 : Fin 2) n m)

/-- The aggregated features before the final transposition, laid out [feature, node]: entry (d, n). -/
def aggT (x : FVec Ideal SX .f32) (adj : FVec Ideal SA .f32) (w : FVec Ideal SW .f32) : FVec Ideal SOT .f32 := fun i =>
  max (∑ m : Fin 4096, hid x w m (i 0) * adjSum adj (i 1) m) (Ideal.ofBits .f32 0x00000000#32)

/-- The result, laid out [node, feature]: entry (n, d) is entry (d, n) of aggT. -/
def G (x : FVec Ideal SX .f32) (adj : FVec Ideal SA .f32) (w : FVec Ideal SW .f32) : FVec Ideal SX .f32 := fun i =>
  aggT x adj w (ix2 (i 1) (i 0))

theorem aggT_apply (x : FVec Ideal SX .f32) (adj : FVec Ideal SA .f32) (w : FVec Ideal SW .f32) (d : Fin 64) (n : Fin 4096) :
    aggT x adj w (ix2 d n) = max (∑ m : Fin 4096, hid x w m d * adjSum adj n m) (Ideal.ofBits .f32 0x00000000#32) := rfl

theorem G_apply (x : FVec Ideal SX .f32) (adj : FVec Ideal SA .f32) (w : FVec Ideal SW .f32) (n : Fin 4096) (d : Fin 64) :
    G x adj w (ix2 n d) = max (∑ m : Fin 4096, hid x w m d * adjSum adj n m) (Ideal.ofBits .f32 0x00000000#32) := rfl

end Cert.Spec

end
-- ==== Proof.RefValue.lean ====
/-
  The reference's result is the specification, index by index on the extended reals.

  The reference forms h = x · w, adds the two adjacency matrices from the zero (0 + (adj₀ + adj₁)), multiplies that sum
  by h and takes the maximum with zero. Against the specification the product's factors are in the other order and the
  sum carries its initial zero: commutativity of the product and 0 + a = a join them.
-/
import proofs.«159236_g19722489823522_cont_8to1_1409_22_alg».proof.Proof.Gen.ReferenceIdeal.Read
import proofs.«159236_g19722489823522_cont_8to1_1409_22_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read Cert.Spec

/-- The reference's hidden feature at (m, d). -/
theorem hidden_apply (x0 : FVec Ideal S4096x64 .f32) (x2 : FVec Ideal S64x64 .f32) (m : Fin 4096) (d : Fin 64) :
    val_main_v0 (F := Ideal) x0 x2 (ix2 m d) = hid x0 x2 m d := by
  rw [val_main_v0_apply]
  unfold hid
  refine Finset.sum_congr rfl fun j _ => ?_
  refine congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- The reference's summed adjacency at (n, m): the initial zero plus the two entries. -/
theorem adj_apply (x1 : FVec Ideal S2x4096x4096 .f32) (n m : Fin 4096) :
    val_main_v1 (F := Ideal) x1 (ix2 n m) = adjSum x1 n m := by
  rw [val_main_v1_apply, Fin.sum_univ_two]
  unfold adjSum
  refine (congrArg₂ (· + ·) Ideal.ofBits_zero_f32 rfl).trans ?_
  rw [zero_add]
  refine congrArg₂ (· + ·) (congrArg x1 ?_) (congrArg x1 ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The reference's result is the specification. -/
theorem result_eq (x0 : FVec Ideal S4096x64 .f32) (x1 : FVec Ideal S2x4096x4096 .f32) (x2 : FVec Ideal S64x64 .f32) :
    val_main_v3 (F := Ideal) x0 x1 x2 = G x0 x1 x2 := by
  funext i
  obtain ⟨n, d, rfl⟩ : ∃ (n : Fin 4096) (d : Fin 64), i = ix2 n d := ⟨i 0, i 1, eq_ix2 i⟩
  rw [G_apply, val_main_v3_apply, val_main_v2_apply, val_main_call0_v0_apply]
  refine congrArg₂ max ?_ rfl
  refine Finset.sum_congr rfl fun k _ => ?_
  have e1 : lidx_main_v2 (ix2 n d) k = ix2 n k := by
    funext a; match a with | ⟨0, _⟩ => rfl | ⟨1, _⟩ => rfl
  have e2 : ridx_main_v2 (ix2 n d) k = ix2 k d := by
    funext a; match a with | ⟨0, _⟩ => rfl | ⟨1, _⟩ => rfl
  rw [e1, e2, adj_apply, hidden_apply, mul_comm]

end Cert.ReferenceIdeal.RefValue

end
-- ==== Proof.Pieces.lean ====
/-
  What one run of the kernel body leaves behind, as values (any float instance).

  The body, at the first grid point, forms h = x · w, stores hᵀ in the scratch, and at every point loads the two planes
  of its adjacency block, the scratch, and stores relu (scratch ·ᵀ (plane 0 + plane 1)) into its output block. Each
  buffer is written by one store that covers it, so what the run leaves is that store's value; at the first point the
  scratch the product reads is the value just stored.
-/
import proofs.«159236_g19722489823522_cont_8to1_1409_22_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-- Plane 0 of an adjacency block [2, 256, 4096], as the body loads it: shape [1, 256, 4096]. -/
abbrev plane0 (x1 : Vec F S2x256x4096 .f32) : Vec F S1x256x4096 .f32 :=
  View.ld x1 (Rect.unit (s := S2x256x4096) ![0, 0, 0] S1x256x4096.size inb_S2x256x4096_S1x256x4096_0_0_0)

/-- Plane 1 of it. -/
abbrev plane1 (x1 : Vec F S2x256x4096 .f32) : Vec F S1x256x4096 .f32 :=
  View.ld x1 (Rect.unit (s := S2x256x4096) ![1, 0, 0] S1x256x4096.size inb_S2x256x4096_S1x256x4096_1_0_0)

/-- What the first point leaves in the scratch: the transposed hidden features of its x and w blocks. -/
theorem scratch_first (c : Dev nD) (i : grid0.Coords) (a1 : Memref sig .tc .vmem S4096x64 .f32) (h1 : a1.IsWhole)
    (a2 : Memref sig .tc .vmem S2x256x4096 .f32) (h2 : a2.IsWhole) (a3 : Memref sig .tc .vmem S64x64 .f32) (h3 : a3.IsWhole)
    (a4 : Memref sig .tc .vmem S64x256 .f32) (h4 : a4.IsWhole) (a5 : Memref sig .tc .vmem S64x4096 .bf16) (h5 : a5.IsWhole)
    (hc : cond0_0 i) (x0 : Vec F S4096x64 .f32) (x1 : Vec F S2x256x4096 .f32) (x2 : Vec F S64x64 .f32) :
    sout0_A_0 c i a1 h1 a2 h2 a3 h3 a4 h4 a5 h5 hc x0 x1 x2 = k0_pay1 x0 x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz2]
  simp only [View.readAt_eq_ld, h1.read_unread, h3.read_unread, View.ld_unit_zero (S := S4096x64) hz2,
    View.ld_unit_zero (S := S64x64) hz2]

/-- What the first point leaves in its output block: the product reads the scratch it has just stored. -/
theorem out_first (c : Dev nD) (i : grid0.Coords) (a1 : Memref sig .tc .vmem S4096x64 .f32) (h1 : a1.IsWhole)
    (a2 : Memref sig .tc .vmem S2x256x4096 .f32) (h2 : a2.IsWhole) (a3 : Memref sig .tc .vmem S64x64 .f32) (h3 : a3.IsWhole)
    (a4 : Memref sig .tc .vmem S64x256 .f32) (h4 : a4.IsWhole) (a5 : Memref sig .tc .vmem S64x4096 .bf16) (h5 : a5.IsWhole)
    (hc : cond0_0 i) (x0 : Vec F S4096x64 .f32) (x1 : Vec F S2x256x4096 .f32) (x2 : Vec F S64x64 .f32) :
    out0_A_3 c i a1 h1 a2 h2 a3 h3 a4 h4 a5 h5 hc x0 x1 x2 = k0_pay2 (plane0 x1) (plane1 x1) (k0_pay1 x0 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, View.ld_unit_zero (S := S4096x64) hz2,
    View.ld_unit_zero (S := S64x64) hz2, View.readCov_unit_zero (S := S64x4096) _ hz2]

/-- What a later point leaves in its output block: the product reads the scratch as the point before left it. -/
theorem out_later (c : Dev nD) (i : grid0.Coords) (a1 : Memref sig .tc .vmem S4096x64 .f32) (h1 : a1.IsWhole)
    (a2 : Memref sig .tc .vmem S2x256x4096 .f32) (h2 : a2.IsWhole) (a3 : Memref sig .tc .vmem S64x64 .f32) (h3 : a3.IsWhole)
    (a4 : Memref sig .tc .vmem S64x256 .f32) (h4 : a4.IsWhole) (a5 : Memref sig .tc .vmem S64x4096 .bf16) (h5 : a5.IsWhole)
    (hc : ¬cond0_0 i) (x0 : Vec F S4096x64 .f32) (x1 : Vec F S2x256x4096 .f32) (x2 : Vec F S64x64 .f32)
    (xs : Vec F S64x4096 .bf16) :
    out0_B_3 c i a1 h1 a2 h2 a3 h3 a4 h4 a5 h5 hc x0 x1 x2 xs = k0_pay2 (plane0 x1) (plane1 x1) xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz2]
  simp only [View.readAt_eq_ld, h2.read_unread, h5.read_unread, View.ld_unit_zero (S := S64x4096) hz2]

end Cert.KernelIdeal.Pieces

end
-- ==== Proof.Carried.lean ====
/-
  What the scratch and the output block hold after each grid point (any float instance).

  The x and w windows have one block, the whole array, at every point; the adjacency window's block at point t is rows
  256 t … 256 t + 255 of both matrices. The scratch is stored at the first point only, from the whole x and w, and no
  later point stores into it: by induction on the point it holds the transposed hidden features after every point. So
  every point's output block is the same function of its adjacency block and of that one scratch value.
-/
import proofs.«159236_g19722489823522_cont_8to1_1409_22_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The three argument arrays as the region finds them. -/
abbrev xarr (c : Dev nD) : Vec F S4096x64 .f32 := V m c main_arg0
abbrev aarr (c : Dev nD) : Vec F S2x4096x4096 .f32 := V m c main_arg1
abbrev warr (c : Dev nD) : Vec F S64x64 .f32 := V m c main_arg2

/-- The blocks the body is handed at point t. -/
abbrev xblk (c : Dev nD) (t : Fin cfg0.N) : Vec F S4096x64 .f32 := iblk m c 0 t
abbrev ablk (c : Dev nD) (t : Fin cfg0.N) : Vec F S2x256x4096 .f32 := iblk m c 1 t
abbrev wblk (c : Dev nD) (t : Fin cfg0.N) : Vec F S64x64 .f32 := iblk m c 2 t

/-- The printed index maps over the grid: x, w and the scratch-free axes stay at block 0; the adjacency window's
    row axis and the output window's column axis move with the point. -/
theorem idx_facts : ∀ t : Fin cfg0.N, win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The x window's block is the whole array at every point. -/
theorem xblk_eq (c : Dev nD) (t : Fin cfg0.N) : xblk m c t = xarr m c := by
  obtain ⟨e0, e1, -⟩ := idx_facts t
  funext j
  unfold xblk iblk
  rw [View.read_apply]
  show V m c main_arg0 _ = V m c main_arg0 j
  congr 1
  funext a
  apply Fin.ext
  match a with
  | ⟨0, _⟩ => show win0_0.index t (0 : Fin 2) * 4096 + 1 * (j 0).val = (j 0).val; rw [e0]; omega
  | ⟨1, _⟩ => show win0_0.index t (1 : Fin 2) * 64 + 1 * (j 1).val = (j 1).val; rw [e1]; omega

/-- The w window's block is the whole array at every point. -/
theorem wblk_eq (c : Dev nD) (t : Fin cfg0.N) : wblk m c t = warr m c := by
  obtain ⟨-, -, -, -, -, e0, e1, -⟩ := idx_facts t
  funext j
  unfold wblk iblk
  rw [View.read_apply]
  show V m c main_arg2 _ = V m c main_arg2 j
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

/-- The transposed hidden features, as the first point stores them in the scratch. -/
abbrev hT (c : Dev nD) : Vec F S64x4096 .bf16 := k0_pay1 (xarr m c) (warr m c)

/-- The scratch holds the transposed hidden features after every point: stored at the first, kept by the others. -/
theorem scratch_eq (c : Dev nD) : ∀ (n : ℕ) (h : n < cfg0.N), (outsAt0 m c n h).2 = hT m c
  | 0, h => by
    rw [outsAt0_A m c ⟨0, h⟩ rfl]
    dsimp only
    refine (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr rfl) (xblk m c ⟨0, h⟩) (ablk m c ⟨0, h⟩) (wblk m c ⟨0, h⟩)).trans ?_
    rw [xblk_eq, wblk_eq]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    unfold sout0_B_0
    exact scratch_eq c n _

/-- Every point's output block: the body's output value of the point's adjacency planes and the one scratch value. -/
theorem out_eq (c : Dev nD) (t : Fin cfg0.N) :
    (outsAt0 m c t.val t.isLt).1 = k0_pay2 (plane0 (ablk m c t)) (plane1 (ablk m c t)) (hT m c) := by
  by_cases h0 : t.val % 16 = 0
  · rw [outsAt0_A m c t h0]
    dsimp only
    refine (out_first c (grid0.coords t) (ms0_0 t) (hs0_0 t) (ms0_1 t) (hs0_1 t) (ms0_2 t) (hs0_2 t)
      (ms0_3 t) (hs0_3 t) scM0_0 (Memref.isWhole_whole _) ((hcond0_0 t).mpr h0) (xblk m c t) (ablk m c t) (wblk m c t)).trans ?_
    rw [xblk_eq, wblk_eq]
  · rw [outsAt0_B m c t h0]
    dsimp only
    refine (out_later c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) (xblk m c t) (ablk m c t) (wblk m c t)
      (outsAt0 m c (t.val - 1) (Nat.lt_of_le_of_lt (Nat.sub_le _ _) t.isLt)).2).trans ?_
    rw [scratch_eq]

end Cert.KernelIdeal.Carried

end
-- ==== Proof.LibTransposedDot.lean ====
/-
  A MATRIX PRODUCT AGAINST THE ROWS OF THE RIGHT OPERAND, READ AT AN INDEX (general lemmas; they mention no program).

  Take dimension numbers of a product [M, K] × [N, K] → [M, N] that contract the left operand's axis 1 with the
  right operand's axis 1, keep the left axis 0 and the right axis 0, and have no batch axes: x · wᵀ without the
  transpose being formed. The contraction index set has one axis of extent K, so it is Fin K; the left operand's
  index at result index (i, j) and contraction position k is (i, k), the right operand's is (j, k). Hence on the
  extended reals the vector unit's accumulate-into-zero product is, at (i, j), the finite sum over k of
  l (i, k) · r (j, k).
-/
import Idealize.ShloMosaic.PureOps.Ideal.Laws
import Idealize.ShloMosaic.Lib.ValueIdx

noncomputable section

open scoped BigOperators

namespace Cert.Lib.TransposedDot

open Idealize.ShloMosaic Idealize.ShloMosaic.ValueIdx

variable {M K N : Nat} (d : DotDims (⟨2, ![M, K]⟩ : Shape) (⟨2, ![N, K]⟩ : Shape) (⟨2, ![M, N]⟩ : Shape))

/-- The dimension numbers are those of x · wᵀ: contract left axis 1 with right axis 1, keep left axis 0 and right
    axis 0, no batch axes. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

theorem contr_rank (h : RowsByRows d) : d.contr.rank = 1 := by rw [d.rank_contr, h.lc]; rfl

theorem contr_size (h : RowsByRows d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : RowsByRows d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : RowsByRows d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the result's column. -/
theorem rhs_row (h : RowsByRows d) (j : (⟨2, ![M, N]⟩ : Shape).Idx) (q : d.contr.Idx) : (d.rhsIdx j q 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The right operand's column is the contraction position. -/
theorem rhs_col (h : RowsByRows d) (j : (⟨2, ![M, N]⟩ : Shape).Idx) (q : d.contr.Idx) :
    (d.rhsIdx j q 1).val = (q ⟨0, by rw [contr_rank h]; exact Nat.one_pos⟩).val :=
  d.rhsIdx_val_of_single h.rc j q

/-- The contraction's sum, re-indexed by the one contracted coordinate. -/
theorem sum_eq (h : RowsByRows d) (l : (⟨2, ![M, K]⟩ : Shape).Idx → EReal) (r : (⟨2, ![N, K]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 (j 1) k := funext fun a => Fin.ext (by
    match a with
    | ⟨0, _⟩ => exact rhs_row h _ _
    | ⟨1, _⟩ => exact (rhs_col h _ _).trans hk)
  exact congrArg₂ (· * ·) (congrArg l el) (congrArg r er)

/-- The vector unit's product into the zero accumulator, at an index. -/
theorem matmul_zero_apply (h : RowsByRows d) {φ₁ φ₂ : FTy} (prec : Option ContractPrecision)
    (l : FVec Ideal (⟨2, ![M, K]⟩ : Shape) φ₁) (r : FVec Ideal (⟨2, ![N, K]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 (j 1) k) :=
  (Ideal.matmul_constant_zero_apply d prec l r j).trans (sum_eq h l r j)

end Cert.Lib.TransposedDot

end
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.Payload.lean ====
/-
  The two stored values of the kernel body read at an index, on the extended reals.

  The scratch value at (d, m) is the hidden feature h (m, d): the product x · w transposed, the change of float format
  being the identity. The output value at (d, n) is max (∑ k, s (d, k) · (p₀ (0, n, k) + p₁ (0, n, k))) 0 for the scratch
  s and the two loaded adjacency planes p₀, p₁: the product contracts the scratch's and the summed planes' minor axes.
-/
import proofs.«159236_g19722489823522_cont_8to1_1409_22_alg».proof.Proof.Gen.KernelIdeal.Skeleton
import proofs.«159236_g19722489823522_cont_8to1_1409_22_alg».proof.Proof.LibTransposedDot
import proofs.«159236_g19722489823522_cont_8to1_1409_22_alg».proof.Proof.LibRowsByCols
import proofs.«159236_g19722489823522_cont_8to1_1409_22_alg».proof.Proof.Spec
import Idealize.ShloMosaic.Lib.ValueLayout
import Idealize.ShloMosaic.Lib.Pipeline.Value

noncomputable section

open scoped BigOperators
open Idealize.ShloMosaic Idealize.ShloMosaic.TcCoe Idealize.ShloMosaic.ValueIdx

namespace Cert.KernelIdeal.Payload

open Cert.KernelIdeal Cert.KernelIdeal.Gen Cert.Spec

/-- x · w contracts x's columns with w's rows. -/
theorem plain_xw : Cert.Lib.RowsByCols.Plain dot_S4096x64_S64x64_S4096x64_1_0_0_1_n_n := ⟨rfl, rfl, rfl, rfl, rfl, rfl⟩

/-- The aggregation contracts the scratch's columns with the summed planes' columns. -/
theorem rows_agg : Cert.Lib.TransposedDot.RowsByRows dot_S64x4096_S256x4096_S64x256_1_1_0_0_n_n := ⟨rfl, rfl, rfl, rfl, rfl, rfl⟩

/-- The scratch value at (d, m) is the hidden feature of node m, feature d. -/
theorem scratch_apply (x : Vec Ideal S4096x64 .f32) (w : Vec Ideal S64x64 .f32) (d : Fin 64) (m : Fin 4096) :
    k0_pay1 (F := Ideal) x w (ix2 d m) = hid x w m d := by
  unfold k0_pay1
  dsimp only
  refine (congrFun (shapeCast_self _ _) _).trans ?_
  refine (truncf_apply (ψ := .bf16) _ bitsLt_bf16_f32 (ix2 d m)).trans ?_
  refine (transpose_ix2_apply _ _ d m).trans ?_
  exact Cert.Lib.RowsByCols.matmul_zero_apply plain_xw none x w (ix2 m d)

/-- The output value at (d, n). -/
theorem out_apply (p0 p1 : Vec Ideal S1x256x4096 .f32) (s : Vec Ideal S64x4096 .bf16) (d : Fin 64) (n : Fin 256) :
    k0_pay2 (F := Ideal) p0 p1 s (ix2 d n)
      = max (∑ k : Fin 4096, s (ix2 d k) * (p0 (ix3 (0 : Fin 1) n k) + p1 (ix3 (0 : Fin 1) n k))) (Ideal.ofBits .f32 0x00000000#32) := by
  unfold k0_pay2
  refine (maximumf_apply _ _ _).trans ?_
  refine congrArg₂ max ?_ rfl
  refine (Cert.Lib.TransposedDot.matmul_zero_apply rows_agg none s _ (ix2 d n)).trans ?_
  refine Finset.sum_congr rfl fun k _ => ?_
  refine congrArg₂ (· * ·) rfl ?_
  refine (truncf_apply (ψ := .bf16) _ bitsLt_bf16_f32 (ix2 n k)).trans ?_
  refine (addf_apply _ _ _).trans ?_
  exact congrArg₂ (· + ·) (shapeCast_1ab_ab_apply p0 _ n k) (shapeCast_1ab_ab_apply p1 _ n k)

end Cert.KernelIdeal.Payload

end
-- ==== Proof.Result.lean ====
/-
  The kernel's result array, on the extended reals: it is the specification.

  Point t's output block, at (d, n), is max (∑ k, h (k, d) · (adj (0, 256 t + n, k) + adj (1, 256 t + n, k))) 0: the
  scratch holds hᵀ and the adjacency block's row n is row 256 t + n of the matrices. That is entry (d, 256 t + n) of the
  [feature, node] array of the specification, and the sixteen blocks, 256 columns each, tile its 4096 columns. The
  program's last operation transposes that array into [node, feature].
-/
import proofs.«159236_g19722489823522_cont_8to1_1409_22_alg».proof.Proof.Carried
import proofs.«159236_g19722489823522_cont_8to1_1409_22_alg».proof.Proof.Payload
import Idealize.ShloMosaic.Lib.StableHlo.Run
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Carried Cert.KernelIdeal.Payload Cert.Spec

variable (m : (ℓ : Loc nD τ sig) → Buf (Elt Ideal) ℓ) (ρ : Dev nD → PrngReg)

/-- Plane 0 of an adjacency block at (0, n, k) is the block at (0, n, k). -/
theorem plane0_apply (x1 : Vec Ideal S2x256x4096 .f32) (n : Fin 256) (k : Fin 4096) :
    plane0 x1 (ix3 (0 : Fin 1) n k) = x1 (ix3 (0 : Fin 2) n k) := by
  show x1 _ = x1 _
  congr 1
  funext a
  apply Fin.ext
  match a with
  | ⟨0, _⟩ => rfl
  | ⟨1, _⟩ => show 0 + 1 * n.val = n.val; omega
  | ⟨2, _⟩ => show 0 + 1 * k.val = k.val; omega

/-- Plane 1 of it at (0, n, k) is the block at (1, n, k). -/
theorem plane1_apply (x1 : Vec Ideal S2x256x4096 .f32) (n : Fin 256) (k : Fin 4096) :
    plane1 x1 (ix3 (0 : Fin 1) n k) = x1 (ix3 (1 : Fin 2) n k) := by
  show x1 _ = x1 _
  congr 1
  funext a
  apply Fin.ext
  match a with
  | ⟨0, _⟩ => rfl
  | ⟨1, _⟩ => show 0 + 1 * n.val = n.val; omega
  | ⟨2, _⟩ => show 0 + 1 * k.val = k.val; omega

/-- The adjacency block at point t: row n of the block is row 256 t + n of both matrices. -/
theorem ablk_apply (c : Dev nD) (t : Fin cfg0.N) (a : Fin 2) (n : Fin 256) (k : Fin 4096) (hr : 256 * t.val + n.val < 4096) :
    ablk m c t (ix3 a n k) = aarr m c (ix3 a ⟨256 * t.val + n.val, hr⟩ k) := by
  obtain ⟨-, -, e0, e1, e2, -⟩ := idx_facts t
  unfold ablk iblk
  rw [View.read_apply]
  show V m c main_arg1 _ = V m c main_arg1 _
  congr 1
  funext b
  apply Fin.ext
  match b with
  | ⟨0, _⟩ => show win0_1.index t (0 : Fin 3) * 2 + 1 * a.val = a.val; rw [e0]; omega
  | ⟨1, _⟩ => show win0_1.index t (1 : Fin 3) * 256 + 1 * n.val = 256 * t.val + n.val; rw [e1]; omega
  | ⟨2, _⟩ => show win0_1.index t (2 : Fin 3) * 4096 + 1 * k.val = k.val; rw [e2]; omega

/-- The kernel region's result array, laid out [feature, node]. -/
abbrev outT (c : Dev nD) : Vec Ideal S64x4096 .f32 := aggT (xarr m c) (aarr m c) (warr m c)

/-- What point t writes back is block t of that array. -/
theorem flushed_eq (c : Dev nD) (t : Fin cfg0.N) :
    (dats m 0 c).flushed 3 t = ((cfg0.win 3).blk t).view.read (Elt Ideal) (outT m c) := by
  show (cfg0.win 3).cut (grid0.coords t) ((dats m 0 c).after 3 t) = _
  rw [after0_3, out_eq]
  obtain ⟨-, -, -, -, -, -, -, e0, e1⟩ := idx_facts t
  have hN : t.val < 16 := lt_of_lt_of_eq t.isLt N_0
  funext j
  obtain ⟨d, n, rfl⟩ : ∃ (d : Fin 64) (n : Fin 256), j = ix2 d n := ⟨j 0, j 1, eq_ix2 j⟩
  have hn : n.val < 256 := n.isLt
  show k0_pay2 (plane0 (ablk m c t)) (plane1 (ablk m c t)) (k0_pay1 (xarr m c) (warr m c)) (ix2 d n)
    = outT m c (((cfg0.win 3).blk t).view.emb (ix2 d n))
  have hi : ((cfg0.win 3).blk t).view.emb (ix2 d n) = ix2 d ⟨256 * t.val + n.val, by omega⟩ := by
    funext a
    apply Fin.ext
    match a with
    | ⟨0, _⟩ => show win0_3.index t (0 : Fin 2) * 64 + 1 * d.val = d.val; rw [e0]; omega
    | ⟨1, _⟩ => show win0_3.index t (1 : Fin 2) * 256 + 1 * n.val = 256 * t.val + n.val; rw [e1]; omega
  rw [hi]
  refine (out_apply (plane0 (ablk m c t)) (plane1 (ablk m c t)) (k0_pay1 (xarr m c) (warr m c)) d n).trans ?_
  refine Eq.trans ?_ (aggT_apply (xarr m c) (aarr m c) (warr m c) d ⟨256 * t.val + n.val, by omega⟩).symm
  refine congrArg₂ max (Finset.sum_congr rfl fun k _ => ?_) rfl
  refine congrArg₂ (· * ·) (scratch_apply (xarr m c) (warr m c) d k) ?_
  refine congrArg₂ (· + ·) ?_ ?_
  · exact (plane0_apply (ablk m c t) n k).trans (ablk_apply m c t 0 n k (by omega))
  · exact (plane1_apply (ablk m c t) n k).trans (ablk_apply m c t 1 n k (by omega))

/-- An index of the array is in point t's block iff each coordinate is in the block's range on its axis. -/
theorem mem_blk (t : Fin cfg0.N) (i : S64x4096.Idx) :
    i ∈ ((cfg0.win 3).blk t).view.set ↔ ∀ a : Fin 2, win0_3.index t a * S64x256.size a ≤ (i a).val ∧ (i a).val < win0_3.index t a * S64x256.size a + S64x256.size a := by
  show i ∈ ((View.whole main_call0_v0).slice (win0_3.rect t)).set ↔ _
  rw [View.set_slice_whole, Rect.mem_set_unit]
  exact Iff.rfl

/-- Column n of the array is in the block of point n / 256: the sixteen blocks tile the array. -/
theorem cover (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, -, -, -, -, e0, e1⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 256 ≤ (i 1).val ∧ (i 1).val < win0_3.index t (1 : Fin 2) * 256 + 256; rw [e1]; omega

/-- The region's result array after the run. -/
theorem final (c : Dev nD) : (dats m 0 c).arrAt 3 cfg0.N = outT m c :=
  (dats m 0 c).arrAt_eq_of_cover 3 (outT m c) (fun t _ => flushed_eq m c t) cover

/-- The program's result: the region's array transposed. -/
theorem tail_eq (c : Dev nD) :
    Pipeline.afterTail₀ cfgs (dats m) 0 (V0 m) [hostOps1] c main_v0 = G (xarr m c) (aarr m c) (warr m c) := by
  unfold Pipeline.afterTail₀
  show StableHlo.after hostOps1 _ (Proc.devRef .tc main_v0) = _
  after_results
  have hA := (Pipeline.withArrays_arr spec0 launch0.win.arr_inj c (V0 m c) (fun w => (dats m 0 c).arrAt w cfg0.N) 3).trans (final m c)
  funext i
  obtain ⟨n, d, rfl⟩ : ∃ (n : Fin 4096) (d : Fin 64), i = ix2 n d := ⟨i 0, i 1, eq_ix2 i⟩
  refine Eq.trans ?_ (congrFun hA (ix2 d n))
  exact transpose_ix2_apply _ _ n d

/-- The run, read: the result at the specification of the argument arrays, the arguments unchanged. -/
theorem run : θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v0 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The certificate of a graph-convolution layer: out = relu ((adj₀ + adj₁) · (x · w)).

  The kernel forms h = x · w once, at the first grid point, keeps hᵀ in a scratch buffer across the grid, and at each of
  the sixteen points writes the block relu (hᵀ ·ᵀ (adj₀ + adj₁) rows) of a [feature, node] array, which the program
  then transposes. The reference forms h, adds the two adjacency matrices from zero, multiplies and applies relu. On
  the extended reals both are, at (n, d), max (∑ m, h (m, d) · (adj₀ (n, m) + adj₁ (n, m))) 0 with
  h (m, d) = ∑ j, x (m, j) · w (j, d): the two sides differ by the order of a product's factors and by an initial zero,
  so the precondition is never opened. The idealization rewrote nothing.
-/
import proofs.«159236_g19722489823522_cont_8to1_1409_22_alg».proof.Defs
import proofs.«159236_g19722489823522_cont_8to1_1409_22_alg».proof.Proof.Gen.Kernel
import proofs.«159236_g19722489823522_cont_8to1_1409_22_alg».proof.Proof.Gen.Kernel.Skeleton
import proofs.«159236_g19722489823522_cont_8to1_1409_22_alg».proof.Proof.Gen.Kernel.Launch
import proofs.«159236_g19722489823522_cont_8to1_1409_22_alg».proof.Proof.Gen.Kernel.Points
import proofs.«159236_g19722489823522_cont_8to1_1409_22_alg».proof.Proof.Gen.Kernel.Frame
import proofs.«159236_g19722489823522_cont_8to1_1409_22_alg».proof.Proof.Gen.KernelIdeal
import proofs.«159236_g19722489823522_cont_8to1_1409_22_alg».proof.Proof.Gen.KernelIdeal.Skeleton
import proofs.«159236_g19722489823522_cont_8to1_1409_22_alg».proof.Proof.Gen.KernelIdeal.Launch
import proofs.«159236_g19722489823522_cont_8to1_1409_22_alg».proof.Proof.Gen.KernelIdeal.Points
import proofs.«159236_g19722489823522_cont_8to1_1409_22_alg».proof.Proof.Gen.KernelIdeal.Frame
import proofs.«159236_g19722489823522_cont_8to1_1409_22_alg».proof.Proof.Gen.ReferenceIdeal
import proofs.«159236_g19722489823522_cont_8to1_1409_22_alg».proof.Proof.Gen.Pre_finite_inputs
import proofs.«159236_g19722489823522_cont_8to1_1409_22_alg».proof.Proof.Gen.ReferenceIdeal.Run
import proofs.«159236_g19722489823522_cont_8to1_1409_22_alg».proof.Proof.Gen.ReferenceIdeal.Read
import proofs.«159236_g19722489823522_cont_8to1_1409_22_alg».proof.Proof.RefValue
import proofs.«159236_g19722489823522_cont_8to1_1409_22_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of argument arrays that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
